-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128x128 .f32) (main_arg9 : FVec F S128x128 .f32) (main_arg10 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S5000x128 : Shape := ⟨2, ![5000, 128]⟩

abbrev nBuf : Space → Nat
  | .hbm => 81
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S_, .f32⟩
  | .hbm, ⟨37, _⟩ => ⟨S50000x128, .f32⟩
  | .hbm, ⟨38, _⟩ => ⟨S800000x1, .i32⟩
  | .hbm, ⟨39, _⟩ => ⟨S50000x128, .f32⟩
  | .hbm, ⟨40, _⟩ => ⟨S50000x1, .f32⟩
  | .hbm, ⟨41, _⟩ => ⟨S50000x128, .f32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S50000x1, .f32⟩
  | .hbm, ⟨59, _⟩ => ⟨S50000x128, .f32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x128, .f32⟩
  | .hbm, ⟨72, _⟩ => ⟨S_, .f32⟩
  | .hbm, ⟨73, _⟩ => ⟨S50000x128, .f32⟩
  | .hbm, ⟨74, _⟩ => ⟨S800000x1, .i32⟩
  | .hbm, ⟨75, _⟩ => ⟨S50000x128, .f32⟩
  | .hbm, ⟨76, _⟩ => ⟨S50000x1, .f32⟩
  | .hbm, ⟨77, _⟩ => ⟨S50000x128, .f32⟩
  | .hbm, ⟨78, _⟩ => ⟨S50000x128, .f32⟩
  | .hbm, ⟨79, _⟩ => ⟨S1x128, .f32⟩
  | .hbm, ⟨80, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_8 : Ref sig .tc := ⟨.hbm, 63, rfl⟩
abbrev main_v42 : Ref sig .tc := ⟨.hbm, 64, rfl⟩
abbrev main_v43 : Ref sig .tc := ⟨.hbm, 65, rfl⟩
abbrev main_c_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v54) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 114
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S_, .f32⟩
  | .hbm, ⟨63, _⟩ => ⟨S800000, .f32⟩
  | .hbm, ⟨64, _⟩ => ⟨S_, .f32⟩
  | .hbm, ⟨65, _⟩ => ⟨S50000, .f32⟩
  | .hbm, ⟨66, _⟩ => ⟨S800000x1, .i32⟩
  | .hbm, ⟨67, _⟩ => ⟨S50000, .f32⟩
  | .hbm, ⟨68, _⟩ => ⟨S_, .f32⟩
  | .hbm, ⟨69, _⟩ => ⟨S50000, .f32⟩
  | .hbm, ⟨70, _⟩ => ⟨S50000, .f32⟩
  | .hbm, ⟨71, _⟩ => ⟨S50000x1, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S1x128, .f32⟩
  | .hbm, ⟨78, _⟩ => ⟨S50000x128, .f32⟩
  | .hbm, ⟨79, _⟩ => ⟨S50000x128, .f32⟩
  | .hbm, ⟨80, _⟩ => ⟨S_, .f32⟩
  | .hbm, ⟨81, _⟩ => ⟨S50000x128, .f32⟩
  | .hbm, ⟨82, _⟩ => ⟨S50000x128, .f32⟩
  | .hbm, ⟨83, _⟩ => ⟨S_, .i32⟩
  | .hbm, ⟨84, _⟩ => ⟨S800000, .i32⟩
  | .hbm, ⟨85, _⟩ => ⟨S800000, .i1⟩
  | .hbm, ⟨86, _⟩ => ⟨S_, .i32⟩
  | .hbm, ⟨87, _⟩ => ⟨S800000, .i32⟩
  | .hbm, ⟨88, _⟩ => ⟨S800000, .i32⟩
  | .hbm, ⟨89, _⟩ => ⟨S800000, .i32⟩
  | .hbm, ⟨90, _⟩ => ⟨S800000x1, .i32⟩
  | .hbm, ⟨91, _⟩ => ⟨S800000x128, .f32⟩
  | .hbm, ⟨92, _⟩ => ⟨S_, .f32⟩
  | .hbm, ⟨93, _⟩ => ⟨S50000x128, .f32⟩
  | .hbm, ⟨94, _⟩ => ⟨S800000x1, .i32⟩
  | .hbm, ⟨95, _⟩ => ⟨S50000x128, .f32⟩
  | .hbm, ⟨96, _⟩ => ⟨S_, .f32⟩
  | .hbm, ⟨97, _⟩ => ⟨S800000, .f32⟩
  | .hbm, ⟨98, _⟩ => ⟨S_, .f32⟩
  | .hbm, ⟨99, _⟩ => ⟨S50000, .f32⟩
  | .hbm, ⟨100, _⟩ => ⟨S800000x1, .i32⟩
  | .hbm, ⟨101, _⟩ => ⟨S50000, .f32⟩
  | .hbm, ⟨102, _⟩ => ⟨S_, .f32⟩
  | .hbm, ⟨103, _⟩ => ⟨S50000, .f32⟩
  | .hbm, ⟨104, _⟩ => ⟨S50000, .f32⟩
  | .hbm, ⟨105, _⟩ => ⟨S50000x1, .f32⟩
  | .hbm, ⟨106, _⟩ => ⟨S50000x128, .f32⟩
  | .hbm, ⟨107, _⟩ => ⟨S50000x128, .f32⟩
  | .hbm, ⟨108, _⟩ => ⟨S50000x128, .f32⟩
  | .hbm, ⟨109, _⟩ => ⟨S50000x128, .f32⟩
  | .hbm, ⟨110, _⟩ => ⟨S50000x128, .f32⟩
  | .hbm, ⟨111, _⟩ => ⟨S1x128, .f32⟩
  | .hbm, ⟨112, _⟩ => ⟨S50000x128, .f32⟩
  | .hbm, ⟨113, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call1_cst : Ref sig .tc := ⟨.hbm, 80, rfl⟩
abbrev main_call1_v0 : Ref sig .tc := ⟨.hbm, 81, rfl⟩
abbrev main_v55 : Ref sig .tc := ⟨.hbm, 82, rfl⟩
abbrev main_c_10 : Ref sig .tc := ⟨.hbm, 83, rfl⟩
abbrev main_v56 : Ref sig .tc := ⟨.hbm, 84, rfl⟩
abbrev main_v57 : Ref sig .tc := ⟨.hbm, 85, rfl⟩
abbrev main_c_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_12 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_13 : Ref sig .tc := ⟨.hbm, 96, rfl⟩
abbrev main_v66 : Ref sig .tc := ⟨.hbm, 97, rfl⟩
abbrev main_cst_14 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_15 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The mathematics both programs compute, stated once over whole arrays at the ideal instance (floats are extended reals).

  A GraphSAGE layer with mean aggregation: for node features `h : [50000,128]`, edge sources `s` and destinations `d`
  (800000 each), the neighbour sum `agg h` scatters row `h[s e]` into row `d e` for every edge `e`, the degree counts the
  edges into each node, and the layer's output at `(r, q)` is
      (Σ_k mean(r,k) · W_l(k,q)) + (Σ_k h(r,k) · W_r(k,q)) + b(q),
  followed, except in the last layer, by `max(·, 0)`.  One program forms `mean = agg · (1 / max(deg,1))`, the other
  `mean = agg / max(deg,1)`.  On the extended reals a quotient by `y ≠ 0` is the product with `y⁻¹`, and `1 / y = y⁻¹`
  there too, so the two means agree wherever the divisor is not zero; and `max(deg,1) ≥ 1` is never zero, whatever
  the degree is.  The gather and the scatter-add are carried as the host operations they are: both programs apply the
  same ones to the same operands, so nothing here looks inside them.
-/
import proofs.«154858_j86947317940720_1_alg».proof.Proof.Gen.KernelIdeal
import Idealize.ShloMosaic.PureOps.Ideal
import Idealize.ShloMosaic.Lib.ValueIdx
import Idealize.ShloMosaic.Lib.Pipeline.Value
import Idealize.ShloMosaic.Lib.IdealHost

noncomputable section

namespace Cert.Sage

open Idealize.ShloMosaic Idealize.ShloMosaic.ValueIdx
open Cert.KernelIdeal Cert.KernelIdeal.Facts₀

/-! ## The edge list as two index columns -/

/-- Row 0 of the edge array: each edge's source node. -/
def src1 (e : Vec Ideal S2x800000 .i32) : Vec Ideal S800000 .i32 :=
  shapeCast S800000 (extractStridedSlice S1x800000 ![0, 0] e slices_S2x800000_S1x800000_0_0) shapeCasts_S1x800000_S800000

/-- Row 1 of the edge array: each edge's destination node. -/
def dst1 (e : Vec Ideal S2x800000 .i32) : Vec Ideal S800000 .i32 :=
  shapeCast S800000 (extractStridedSlice S1x800000 ![1, 0] e slices_S2x800000_S1x800000_1_0) shapeCasts_S1x800000_S800000

/-- The sources as a column of start indices, a negative one counted from the end (`s < 0 ↦ s + 50000`). -/
def srcCol (s : Vec Ideal S800000 .i32) : Vec Ideal S800000x1 .i32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The destinations as a column of scatter indices. -/
def dstCol (d : Vec Ideal S800000 .i32) : Vec Ideal S800000x1 .i32 :=
  broadcastInDim S800000x1 ![0] bcast_S800000_S800000x1_0 d

/-! ## Neighbour sum, degree, and the two spellings of the mean -/

/-- The neighbour sum: rows of `h` gathered at the sources, added into the rows the destinations name. -/
def agg (h : FVec Ideal S50000x128 .f32) (s d : Vec Ideal S800000 .i32) : FVec Ideal S50000x128 .f32 :=
  Host.scatterAdd scatter_S50000x128_S800000x1_S800000x128_1_0_0_1
    (broadcastInDim S50000x128 ![] bcast_S_S50000x128 (constant (F := Ideal) S_ .f32 0x00000000#32)) (dstCol d)
    (Host.gather gather_S50000x128_S800000x1_S800000x128_1_0_n_n_0_1_1128 h (srcCol s))

/-- The in-degree: a one added per edge into its destination. -/
def deg (d : Vec Ideal S800000 .i32) : FVec Ideal S50000 .f32 :=
  Host.scatterAdd scatter_S50000_S800000x1_S800000_n_0_0_1
    (broadcastInDim S50000 ![] bcast_S_S50000 (constant (F := Ideal) S_ .f32 0x00000000#32)) (dstCol d)
    (broadcastInDim S800000 ![] bcast_S_S800000 (constant (F := Ideal) S_ .f32 0x3F800000#32))

/-- The divisor `max(deg, 1)`. -/
def den (d : Vec Ideal S800000 .i32) : FVec Ideal S50000 .f32 :=
  maximumf (F := Ideal) (deg d) (broadcastInDim S50000 ![] bcast_S_S50000 (constant (F := Ideal) S_ .f32 0x3F800000#32))

/-- Its reciprocal `1 / max(deg, 1)`. -/
def inv (d : Vec Ideal S800000 .i32) : FVec Ideal S50000 .f32 :=
  Host.divf (F := Ideal) (broadcastInDim S50000 ![] bcast_S_S50000 (constant (F := Ideal) S_ .f32 0x3F800000#32)) (den d)

/-- A per-node value spread along the feature axis. -/
def spread (v : FVec Ideal S50000 .f32) : FVec Ideal S50000x128 .f32 :=
  broadcastInDim S50000x128 ![0, 1] bcast_S50000x1_S50000x128_0_1 (broadcastInDim S50000x1 ![0] bcast_S50000_S50000x1_0 v)

/-- The mean as the sum times the reciprocal of the divisor. -/
def meanMul (h : FVec Ideal S50000x128 .f32) (s d : Vec Ideal S800000 .i32) : FVec Ideal S50000x128 .f32 :=
  mulf (F := Ideal) (agg h s d) (spread (inv d))

/-- The mean as the sum over the divisor. -/
def meanDiv (h : FVec Ideal S50000x128 .f32) (s d : Vec Ideal S800000 .i32) : FVec Ideal S50000x128 .f32 :=
  Host.divf (F := Ideal) (agg h s d) (spread (den d))

/-- On the extended reals `x · (1 / y) = x / y` for every `y ≠ 0`, infinite `y` included: both are `x · y⁻¹`. -/
theorem mul_one_div_eq_div (x y : EReal) (hy : y ≠ 0) : x * Ideal.div 1 y = Ideal.div x y := by
  unfold Ideal.div
  rw [if_neg hy, if_neg hy, one_mul]

/-- `max(a, 1)` is never zero. -/
theorem max_one_ne_zero (a : EReal) : max a (1 : EReal) ≠ 0 := by
  intro h
  have h1 : (1 : EReal) ≤ max a 1 := le_max_right a 1
  rw [h] at h1
  exact absurd h1 (by norm_num)

/-- A spread value read at `(r, q)` is the value at `r`. -/
theorem spread_apply (v : FVec Ideal S50000 .f32) (i : S50000x128.Idx) :
    spread v i = v (ix1 (⟨(i 0).val, (i 0).isLt⟩ : Fin 50000)) := by
  unfold spread
  rw [broadcastInDim_apply (![0, 1] : Fin 2 → Fin S50000x128.rank) bcast_S50000x1_S50000x128_0_1 _ i
      (ix2 (⟨(i 0).val, (i 0).isLt⟩ : Fin 50000) (⟨0, Nat.one_pos⟩ : Fin 1)) (fun a => match a with
        | ⟨0, _⟩ => by show (i 0).val = if (50000 : Nat) = 1 then 0 else (i 0).val; rw [if_neg (by decide)]
        | ⟨1, _⟩ => by show 0 = if (1 : Nat) = 1 then 0 else (i 1).val; rw [if_pos rfl])]
  exact broadcastInDim_apply (![0] : Fin 1 → Fin S50000x1.rank) bcast_S50000_S50000x1_0 v _
      (ix1 (⟨(i 0).val, (i 0).isLt⟩ : Fin 50000)) (fun a => match a with
        | ⟨0, _⟩ => by show (i 0).val = if (50000 : Nat) = 1 then 0 else (i 0).val; rw [if_neg (by decide)])

/-- The constant-one vector reads one everywhere. -/
theorem ones_apply (j : S50000.Idx) :
    broadcastInDim S50000 ![] bcast_S_S50000 (constant (F := Ideal) S_ .f32 0x3F800000#32) j = (1 : EReal) := by
  rw [broadcastInDim_scalar_apply]; exact Ideal.ofBits_one_f32

/-- THE LAW over any sum `a` and any count `g`: `a · (1 / max(g,1)) = a / max(g,1)`, at every node and feature, finite or
    not: the divisor is at least one, so both sides are `a` times its inverse. -/
theorem mean_law (a : FVec Ideal S50000x128 .f32) (g : FVec Ideal S50000 .f32) :
    mulf (F := Ideal) a (spread (Host.divf (F := Ideal) (broadcastInDim S50000 ![] bcast_S_S50000 (constant (F := Ideal) S_ .f32 0x3F800000#32))
        (maximumf (F := Ideal) g (broadcastInDim S50000 ![] bcast_S_S50000 (constant (F := Ideal) S_ .f32 0x3F800000#32)))))
      = Host.divf (F := Ideal) a (spread (maximumf (F := Ideal) g (broadcastInDim S50000 ![] bcast_S_S50000 (constant (F := Ideal) S_ .f32 0x3F800000#32)))) := by
  funext i
  rw [mulf_apply, hostDivf_apply, spread_apply, spread_apply, hostDivf_apply, maximumf_apply, ones_apply]
  exact mul_one_div_eq_div _ _ (max_one_ne_zero _)

/-- The two spellings of the mean agree, for every feature array and every edge list. -/
theorem mean_eq (h : FVec Ideal S50000x128 .f32) (s d : Vec Ideal S800000 .i32) : meanMul h s d = meanDiv h s d := by
  unfold meanMul meanDiv inv den
  exact mean_law (agg h s d) (deg d)

/-! ## One layer, and the network -/

/-- A bias vector as the one-row matrix the dense stage reads it through. -/
def row (b : FVec Ideal S128 .f32) : FVec Ideal S1x128 .f32 := shapeCast S1x128 b shapeCasts_S128_S1x128

/-- The layer before its activation: `mean · W_l + x · W_r + b`, one entry at a time. -/
def lin (mean x : FVec Ideal S50000x128 .f32) (wl wr : FVec Ideal S128x128 .f32) (b : FVec Ideal S1x128 .f32) :
    FVec Ideal S50000x128 .f32 := fun i =>
  ((∑ k : Fin 128, mean (ix2 (⟨(i 0).val, (i 0).isLt⟩ : Fin 50000) k) * wl (ix2 k (⟨(i 1).val, (i 1).isLt⟩ : Fin 128)))
    + (∑ k : Fin 128, x (ix2 (⟨(i 0).val, (i 0).isLt⟩ : Fin 50000) k) * wr (ix2 k (⟨(i 1).val, (i 1).isLt⟩ : Fin 128))))
    + b (ix2 (⟨0, Nat.one_pos⟩ : Fin 1) (⟨(i 1).val, (i 1).isLt⟩ : Fin 128))

/-- The activation `max(·, 0)`, entry by entry. -/
def act (y : FVec Ideal S50000x128 .f32) : FVec Ideal S50000x128 .f32 := fun i => max (y i) (Ideal.ofBits .f32 0x00000000#32)

/-- One hidden layer on the quotient mean. -/
def hidden (h : FVec Ideal S50000x128 .f32) (s d : Vec Ideal S800000 .i32) (wl wr : FVec Ideal S128x128 .f32)
    (b : FVec Ideal S128 .f32) : FVec Ideal S50000x128 .f32 :=
  act (lin (meanDiv h s d) h wl wr (row b))

/-- The three layers: two hidden ones and a last one with no activation. -/
def net (x : FVec Ideal S50000x128 .f32) (e : Vec Ideal S2x800000 .i32)
    (wl0 wr0 : FVec Ideal S128x128 .f32) (b0 : FVec Ideal S128 .f32)
    (wl1 wr1 : FVec Ideal S128x128 .f32) (b1 : FVec Ideal S128 .f32)
    (wl2 wr2 : FVec Ideal S128x128 .f32) (b2 : FVec Ideal S128 .f32) : FVec Ideal S50000x128 .f32 :=
  lin (meanDiv (hidden (hidden x (src1 e) (dst1 e) wl0 wr0 b0) (src1 e) (dst1 e) wl1 wr1 b1) (src1 e) (dst1 e))
    (hidden (hidden x (src1 e) (dst1 e) wl0 wr0 b0) (src1 e) (dst1 e) wl1 wr1 b1) wl2 wr2 (row b2)

end Cert.Sage

end
-- ==== Proof.Body.lean ====
/-
  One block of a layer, entry by entry.  The kernel body loads a block of 5000 rows of the mean and of the features,
  the two weight matrices and the bias row, narrows the four matrix operands (a change of format is the identity on
  extended reals), forms two matrix products from a zero accumulator, adds them, adds the bias row to every row and, in
  the first two layers, takes the maximum with zero.  A matrix product from a zero accumulator at `(p, q)` is the sum
  over the one contracted axis `k` of `lhs (p, k) · rhs (k, q)`; so the stored value at `(p, q)` is
      (Σ_k mean(p,k) · W_l(k,q)) + (Σ_k x(p,k) · W_r(k,q)) + b(0,q),   under `max(·, 0)` where the layer has one.
-/
import proofs.«154858_j86947317940720_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.Sage.Body

open Idealize.ShloMosaic Idealize.ShloMosaic.ValueIdx
open Cert.KernelIdeal Cert.KernelIdeal.Facts₀

/-! ## The block product's operand indices, axis by axis -/

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product from a zero accumulator, at `(p, q)`: the sum over `k` of `a (p, k) · w (k, q)`. -/
theorem mm_apply {φ₁ φ₂ : FTy} (a : FVec Ideal S5000x128 φ₁) (w : FVec Ideal S128x128 φ₂) (p : Fin 5000) (q : Fin 128) :
    matmul (F := Ideal) dot_S5000x128_S128x128_S5000x128_1_0_0_1_n_n none a w (constant (F := Ideal) S5000x128 .f32 0x00000000#32) (ix2 p q)
      = ∑ k : Fin 128, a (ix2 p k) * w (ix2 k q) := by
  refine (Ideal.matmul_constant_zero_apply dot_S5000x128_S128x128_S5000x128_1_0_0_1_n_n none a w (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-! ## The three stored values at an entry -/

/-- Layer 0's block at `(p, q)`. -/
theorem pay0_apply (x0 x1 : FVec Ideal S5000x128 .f32) (x2 x3 : FVec Ideal S128x128 .f32) (x4 : FVec Ideal S1x128 .f32)
    (p : Fin 5000) (q : Fin 128) :
    Cert.KernelIdeal.Gen.k0_pay1 (F := Ideal) x0 x1 x2 x3 x4 (ix2 p q)
      = max (((∑ k : Fin 128, x0 (ix2 p k) * x2 (ix2 k q)) + (∑ k : Fin 128, x1 (ix2 p k) * x3 (ix2 k q))) + x4 (ix2 (0 : Fin 1) q))
          (Ideal.ofBits .f32 0x00000000#32) := by
  unfold Cert.KernelIdeal.Gen.k0_pay1
  simp only [shapeCast_self]
  rw [maximumf_apply, addf_apply, addf_apply, mm_apply, mm_apply, broadcastTo_1b_ab_apply]
  rfl

/-- Layer 1's block at `(p, q)`. -/
theorem pay1_apply (x0 x1 : FVec Ideal S5000x128 .f32) (x2 x3 : FVec Ideal S128x128 .f32) (x4 : FVec Ideal S1x128 .f32)
    (p : Fin 5000) (q : Fin 128) :
    Cert.KernelIdeal.Gen.k1_pay1 (F := Ideal) x0 x1 x2 x3 x4 (ix2 p q)
      = max (((∑ k : Fin 128, x0 (ix2 p k) * x2 (ix2 k q)) + (∑ k : Fin 128, x1 (ix2 p k) * x3 (ix2 k q))) + x4 (ix2 (0 : Fin 1) q))
          (Ideal.ofBits .f32 0x00000000#32) := by
  unfold Cert.KernelIdeal.Gen.k1_pay1
  simp only [shapeCast_self]
  rw [maximumf_apply, addf_apply, addf_apply, mm_apply, mm_apply, broadcastTo_1b_ab_apply]
  rfl

/-- Layer 2's block at `(p, q)`: no maximum. -/
theorem pay2_apply (x0 x1 : FVec Ideal S5000x128 .f32) (x2 x3 : FVec Ideal S128x128 .f32) (x4 : FVec Ideal S1x128 .f32)
    (p : Fin 5000) (q : Fin 128) :
    Cert.KernelIdeal.Gen.k2_pay1 (F := Ideal) x0 x1 x2 x3 x4 (ix2 p q)
      = ((∑ k : Fin 128, x0 (ix2 p k) * x2 (ix2 k q)) + (∑ k : Fin 128, x1 (ix2 p k) * x3 (ix2 k q))) + x4 (ix2 (0 : Fin 1) q) := by
  unfold Cert.KernelIdeal.Gen.k2_pay1
  simp only [shapeCast_self]
  rw [addf_apply, addf_apply, mm_apply, mm_apply, broadcastTo_1b_ab_apply]
  rfl

end Cert.Sage.Body

end
-- ==== Proof.Region0.lean ====
/-
  The first pallas_call as one function of the arrays it is entered with.  Its grid has ten points; at point `t` the mean,
  the features and the output are read and written through rows `5000 t … 5000 t + 4999` (all 128 columns), and the two
  weight matrices and the bias row are read whole.  So what point `t` writes back is rows `5000 t …` of the layer
  function of the WHOLE entry arrays: an entry `(p, q)` of the block depends on row `5000 t + p` of the mean and of the
  features only.  The ten row blocks tile the 50000 rows (row `r` lies in block `r / 5000`), so the output array ends
  holding the layer function everywhere.  Stated at any contents `V` the region may be entered with.
-/
import proofs.«154858_j86947317940720_1_alg».proof.Proof.Gen.KernelIdeal.Frame
import proofs.«154858_j86947317940720_1_alg».proof.Proof.Spec
import proofs.«154858_j86947317940720_1_alg».proof.Proof.Body
import Idealize.ShloMosaic.Lib.Pipeline.Value

set_option maxRecDepth 16384

noncomputable section

namespace Cert.Sage.R0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The arrays the region reads, as it finds them: the mean, the features, the two weight matrices, the bias row. -/
abbrev aMean (c : Dev nD) : FVec Ideal S50000x128 .f32 := V c main_v24
abbrev aFeat (c : Dev nD) : FVec Ideal S50000x128 .f32 := V c main_arg0
abbrev aWl (c : Dev nD) : FVec Ideal S128x128 .f32 := V c main_arg2
abbrev aWr (c : Dev nD) : FVec Ideal S128x128 .f32 := V c main_arg3
abbrev aBias (c : Dev nD) : FVec Ideal S1x128 .f32 := V c main_v25

/-- What the output array ends holding: the activated layer of the entry arrays. -/
def G (c : Dev nD) : FVec Ideal S50000x128 .f32 :=
  Cert.Sage.act (Cert.Sage.lin (aMean V c) (aFeat V c) (aWl V c) (aWr V c) (aBias V c))

theorem hz : (![0, 0] : Fin 2 → Nat) = fun _ => 0 := funext fun a => by fin_cases a <;> rfl

theorem lt_ten (t : Fin cfg0.N) : t.val < 10 := Nat.lt_of_lt_of_eq t.isLt N_0

/-- The printed index maps over the grid: the three row-blocked windows sit at block `(t, 0)`, the three whole ones at `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## Each window's block at an entry -/

/-- The mean's block at point `t`, entry `(p, k)`: row `5000 t + p` of the array. -/
theorem blkMean (c : Dev nD) (t : Fin cfg0.N) (p : Fin 5000) (k : Fin 128) :
    (iblk0 V c 0 t : FVec Ideal S5000x128 .f32) (ix2 p k)
      = aMean V c (ix2 (⟨t.val * 5000 + p.val, by have := lt_ten t; have := p.isLt; omega⟩ : Fin 50000) k) := by
  obtain ⟨e0, e1, -⟩ := idx_facts t
  unfold iblk0
  rw [View.read_apply]
  show V c main_v24 _ = V c main_v24 _
  refine congrArg (V c main_v24) ?_
  funext a; apply Fin.ext
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- The features' block at point `t`, entry `(p, k)`: row `5000 t + p` of the array. -/
theorem blkFeat (c : Dev nD) (t : Fin cfg0.N) (p : Fin 5000) (k : Fin 128) :
    (iblk0 V c 1 t : FVec Ideal S5000x128 .f32) (ix2 p k)
      = aFeat V c (ix2 (⟨t.val * 5000 + p.val, by have := lt_ten t; have := p.isLt; omega⟩ : Fin 50000) k) := by
  obtain ⟨-, -, e0, e1, -⟩ := idx_facts t
  unfold iblk0
  rw [View.read_apply]
  show V c main_arg0 _ = V c main_arg0 _
  refine congrArg (V c main_arg0) ?_
  funext a; apply Fin.ext
  match a with
  | ⟨0, _⟩ => show win0_1.index t (0 : Fin 2) * 5000 + 1 * p.val = t.val * 5000 + p.val; rw [e0]; omega
  | ⟨1, _⟩ => show win0_1.index t (1 : Fin 2) * 128 + 1 * k.val = k.val; rw [e1]; omega

/-- The left weights' block is the whole matrix. -/
theorem blkWl (c : Dev nD) (t : Fin cfg0.N) (k q : Fin 128) :
    (iblk0 V c 2 t : FVec Ideal S128x128 .f32) (ix2 k q) = aWl V c (ix2 k q) := by
  obtain ⟨-, -, -, -, e0, e1, -⟩ := idx_facts t
  unfold iblk0
  rw [View.read_apply]
  show V c main_arg2 _ = V c main_arg2 _
  refine congrArg (V c main_arg2) ?_
  funext a; apply Fin.ext
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- The right weights' block is the whole matrix. -/
theorem blkWr (c : Dev nD) (t : Fin cfg0.N) (k q : Fin 128) :
    (iblk0 V c 3 t : FVec Ideal S128x128 .f32) (ix2 k q) = aWr V c (ix2 k q) := by
  obtain ⟨-, -, -, -, -, -, e0, e1, -⟩ := idx_facts t
  unfold iblk0
  rw [View.read_apply]
  show V c main_arg3 _ = V c main_arg3 _
  refine congrArg (V c main_arg3) ?_
  funext a; apply Fin.ext
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- The bias row's block is the whole row. -/
theorem blkBias (c : Dev nD) (t : Fin cfg0.N) (u : Fin 1) (q : Fin 128) :
    (iblk0 V c 4 t : FVec Ideal S1x128 .f32) (ix2 u q) = aBias V c (ix2 u q) := by
  obtain ⟨-, -, -, -, -, -, -, -, e0, e1, -⟩ := idx_facts t
  unfold iblk0
  rw [View.read_apply]
  show V c main_v25 _ = V c main_v25 _
  refine congrArg (V c main_v25) ?_
  funext a; apply Fin.ext
  match a with
  | ⟨0, _⟩ => show win0_4.index t (0 : Fin 2) * 1 + 1 * u.val = u.val; rw [e0]; omega
  | ⟨1, _⟩ => show win0_4.index t (1 : Fin 2) * 128 + 1 * q.val = q.val; rw [e1]; omega

/-! ## What a point writes back, the cover, the array -/

/-- Entry `(p, q)` of the output's block at point `t` is entry `(5000 t + p, q)` of the array. -/
theorem emb_out (t : Fin cfg0.N) (p : Fin 5000) (q : Fin 128) :
    ((cfg0.win 5).blk t).view.emb (ix2 p q)
      = ix2 (⟨t.val * 5000 + p.val, by have := lt_ten t; have := p.isLt; omega⟩ : Fin 50000) q := by
  obtain ⟨-, -, -, -, -, -, -, -, -, -, e0, e1⟩ := idx_facts t
  funext a; apply Fin.ext
  match a with
  | ⟨0, _⟩ => show win0_5.index t (0 : Fin 2) * 5000 + 1 * p.val = t.val * 5000 + p.val; rw [e0]; omega
  | ⟨1, _⟩ => show win0_5.index t (1 : Fin 2) * 128 + 1 * q.val = q.val; rw [e1]; omega

/-- WHAT POINT `t` WRITES BACK is block `t` of the layer function of the whole entry arrays. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
      = G V c (((cfg0.win 5).blk t).view.emb (ix2 p q))
  refine (Cert.Sage.Body.pay0_apply _ _ _ _ _ p q).trans ?_
  rw [emb_out]
  simp only [blkMean, blkFeat, blkWl, blkWr, blkBias]
  rfl

/-- An index of the array is in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- Every row lies in the block of the point `row / 5000`. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, -, -, -, -, e0, e1⟩ := idx_facts t
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; rw [e0, ht]; omega
  | ⟨1, _⟩ => show win0_5.index t (1 : Fin 2) * 128 ≤ (i 1).val ∧ (i 1).val < win0_5.index t (1 : Fin 2) * 128 + 128; rw [e1]; omega

/-- THE OUTPUT ARRAY after the region: the activated layer of the entry arrays. -/
theorem final (c : Dev nD) : (dat0 V c).arrAt 5 cfg0.N = G V c :=
  (dat0 V c).arrAt_eq_of_cover 5 (G V c) (fun t _ => flushed_eq V c t) (cover)

end Cert.Sage.R0

end
-- ==== Proof.Region1.lean ====
/-
  The second pallas_call as one function of the arrays it is entered with.  Its grid has ten points; at point `t` the mean,
  the features and the output are read and written through rows `5000 t … 5000 t + 4999` (all 128 columns), and the two
  weight matrices and the bias row are read whole.  So what point `t` writes back is rows `5000 t …` of the layer
  function of the WHOLE entry arrays: an entry `(p, q)` of the block depends on row `5000 t + p` of the mean and of the
  features only.  The ten row blocks tile the 50000 rows (row `r` lies in block `r / 5000`), so the output array ends
  holding the layer function everywhere.  Stated at any contents `V` the region may be entered with.
-/
import proofs.«154858_j86947317940720_1_alg».proof.Proof.Gen.KernelIdeal.Frame
import proofs.«154858_j86947317940720_1_alg».proof.Proof.Spec
import proofs.«154858_j86947317940720_1_alg».proof.Proof.Body
import Idealize.ShloMosaic.Lib.Pipeline.Value

set_option maxRecDepth 16384

noncomputable section

namespace Cert.Sage.R1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The arrays the region reads, as it finds them: the mean, the features, the two weight matrices, the bias row. -/
abbrev aMean (c : Dev nD) : FVec Ideal S50000x128 .f32 := V c main_v39
abbrev aFeat (c : Dev nD) : FVec Ideal S50000x128 .f32 := V c main_v26
abbrev aWl (c : Dev nD) : FVec Ideal S128x128 .f32 := V c main_arg5
abbrev aWr (c : Dev nD) : FVec Ideal S128x128 .f32 := V c main_arg6
abbrev aBias (c : Dev nD) : FVec Ideal S1x128 .f32 := V c main_v40

/-- What the output array ends holding: the activated layer of the entry arrays. -/
def G (c : Dev nD) : FVec Ideal S50000x128 .f32 :=
  Cert.Sage.act (Cert.Sage.lin (aMean V c) (aFeat V c) (aWl V c) (aWr V c) (aBias V c))

theorem hz : (![0, 0] : Fin 2 → Nat) = fun _ => 0 := funext fun a => by fin_cases a <;> rfl

theorem lt_ten (t : Fin cfg1.N) : t.val < 10 := Nat.lt_of_lt_of_eq t.isLt N_1

/-- The printed index maps over the grid: the three row-blocked windows sit at block `(t, 0)`, the three whole ones at `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## Each window's block at an entry -/

/-- The mean's block at point `t`, entry `(p, k)`: row `5000 t + p` of the array. -/
theorem blkMean (c : Dev nD) (t : Fin cfg1.N) (p : Fin 5000) (k : Fin 128) :
    (iblk1 V c 0 t : FVec Ideal S5000x128 .f32) (ix2 p k)
      = aMean V c (ix2 (⟨t.val * 5000 + p.val, by have := lt_ten t; have := p.isLt; omega⟩ : Fin 50000) k) := by
  obtain ⟨e0, e1, -⟩ := idx_facts t
  unfold iblk1
  rw [View.read_apply]
  show V c main_v39 _ = V c main_v39 _
  refine congrArg (V c main_v39) ?_
  funext a; apply Fin.ext
  match a with
  | ⟨0, _⟩ => show win1_0.index t (0 : Fin 2) * 5000 + 1 * p.val = t.val * 5000 + p.val; rw [e0]; omega
  | ⟨1, _⟩ => show win1_0.index t (1 : Fin 2) * 128 + 1 * k.val = k.val; rw [e1]; omega

/-- The features' block at point `t`, entry `(p, k)`: row `5000 t + p` of the array. -/
theorem blkFeat (c : Dev nD) (t : Fin cfg1.N) (p : Fin 5000) (k : Fin 128) :
    (iblk1 V c 1 t : FVec Ideal S5000x128 .f32) (ix2 p k)
      = aFeat V c (ix2 (⟨t.val * 5000 + p.val, by have := lt_ten t; have := p.isLt; omega⟩ : Fin 50000) k) := by
  obtain ⟨-, -, e0, e1, -⟩ := idx_facts t
  unfold iblk1
  rw [View.read_apply]
  show V c main_v26 _ = V c main_v26 _
  refine congrArg (V c main_v26) ?_
  funext a; apply Fin.ext
  match a with
  | ⟨0, _⟩ => show win1_1.index t (0 : Fin 2) * 5000 + 1 * p.val = t.val * 5000 + p.val; rw [e0]; omega
  | ⟨1, _⟩ => show win1_1.index t (1 : Fin 2) * 128 + 1 * k.val = k.val; rw [e1]; omega

/-- The left weights' block is the whole matrix. -/
theorem blkWl (c : Dev nD) (t : Fin cfg1.N) (k q : Fin 128) :
    (iblk1 V c 2 t : FVec Ideal S128x128 .f32) (ix2 k q) = aWl V c (ix2 k q) := by
  obtain ⟨-, -, -, -, e0, e1, -⟩ := idx_facts t
  unfold iblk1
  rw [View.read_apply]
  show V c main_arg5 _ = V c main_arg5 _
  refine congrArg (V c main_arg5) ?_
  funext a; apply Fin.ext
  match a with
  | ⟨0, _⟩ => show win1_2.index t (0 : Fin 2) * 128 + 1 * k.val = k.val; rw [e0]; omega
  | ⟨1, _⟩ => show win1_2.index t (1 : Fin 2) * 128 + 1 * q.val = q.val; rw [e1]; omega

/-- The right weights' block is the whole matrix. -/
theorem blkWr (c : Dev nD) (t : Fin cfg1.N) (k q : Fin 128) :
    (iblk1 V c 3 t : FVec Ideal S128x128 .f32) (ix2 k q) = aWr V c (ix2 k q) := by
  obtain ⟨-, -, -, -, -, -, e0, e1, -⟩ := idx_facts t
  unfold iblk1
  rw [View.read_apply]
  show V c main_arg6 _ = V c main_arg6 _
  refine congrArg (V c main_arg6) ?_
  funext a; apply Fin.ext
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-- The bias row's block is the whole row. -/
theorem blkBias (c : Dev nD) (t : Fin cfg1.N) (u : Fin 1) (q : Fin 128) :
    (iblk1 V c 4 t : FVec Ideal S1x128 .f32) (ix2 u q) = aBias V c (ix2 u q) := by
  obtain ⟨-, -, -, -, -, -, -, -, e0, e1, -⟩ := idx_facts t
  unfold iblk1
  rw [View.read_apply]
  show V c main_v40 _ = V c main_v40 _
  refine congrArg (V c main_v40) ?_
  funext a; apply Fin.ext
  match a with
  | ⟨0, _⟩ => show win1_4.index t (0 : Fin 2) * 1 + 1 * u.val = u.val; rw [e0]; omega
  | ⟨1, _⟩ => show win1_4.index t (1 : Fin 2) * 128 + 1 * q.val = q.val; rw [e1]; omega

/-! ## What a point writes back, the cover, the array -/

/-- Entry `(p, q)` of the output's block at point `t` is entry `(5000 t + p, q)` of the array. -/
theorem emb_out (t : Fin cfg1.N) (p : Fin 5000) (q : Fin 128) :
    ((cfg1.win 5).blk t).view.emb (ix2 p q)
      = ix2 (⟨t.val * 5000 + p.val, by have := lt_ten t; have := p.isLt; omega⟩ : Fin 50000) q := by
  obtain ⟨-, -, -, -, -, -, -, -, -, -, e0, e1⟩ := idx_facts t
  funext a; apply Fin.ext
  match a with
  | ⟨0, _⟩ => show win1_5.index t (0 : Fin 2) * 5000 + 1 * p.val = t.val * 5000 + p.val; rw [e0]; omega
  | ⟨1, _⟩ => show win1_5.index t (1 : Fin 2) * 128 + 1 * q.val = q.val; rw [e1]; omega

/-- WHAT POINT `t` WRITES BACK is block `t` of the layer function of the whole entry arrays. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
      = G V c (((cfg1.win 5).blk t).view.emb (ix2 p q))
  refine (Cert.Sage.Body.pay1_apply _ _ _ _ _ p q).trans ?_
  rw [emb_out]
  simp only [blkMean, blkFeat, blkWl, blkWr, blkBias]
  rfl

/-- An index of the array is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v41).slice (win1_5.rect t)).set ↔ _
  rw [View.set_slice_whole, Rect.mem_set_unit]
  exact Iff.rfl

/-- Every row lies in the block of the point `row / 5000`. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, -, -, -, -, e0, e1⟩ := idx_facts t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; rw [e0, ht]; omega
  | ⟨1, _⟩ => show win1_5.index t (1 : Fin 2) * 128 ≤ (i 1).val ∧ (i 1).val < win1_5.index t (1 : Fin 2) * 128 + 128; rw [e1]; omega

/-- THE OUTPUT ARRAY after the region: the activated layer of the entry arrays. -/
theorem final (c : Dev nD) : (dat1 V c).arrAt 5 cfg1.N = G V c :=
  (dat1 V c).arrAt_eq_of_cover 5 (G V c) (fun t _ => flushed_eq V c t) (cover)

end Cert.Sage.R1

end
-- ==== Proof.Region2.lean ====
/-
  The third pallas_call as one function of the arrays it is entered with.  Its grid has ten points; at point `t` the mean,
  the features and the output are read and written through rows `5000 t … 5000 t + 4999` (all 128 columns), and the two
  weight matrices and the bias row are read whole.  So what point `t` writes back is rows `5000 t …` of the layer
  function of the WHOLE entry arrays: an entry `(p, q)` of the block depends on row `5000 t + p` of the mean and of the
  features only.  The ten row blocks tile the 50000 rows (row `r` lies in block `r / 5000`), so the output array ends
  holding the layer function everywhere.  Stated at any contents `V` the region may be entered with.
-/
import proofs.«154858_j86947317940720_1_alg».proof.Proof.Gen.KernelIdeal.Frame
import proofs.«154858_j86947317940720_1_alg».proof.Proof.Spec
import proofs.«154858_j86947317940720_1_alg».proof.Proof.Body
import Idealize.ShloMosaic.Lib.Pipeline.Value

set_option maxRecDepth 16384

noncomputable section

namespace Cert.Sage.R2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The arrays the region reads, as it finds them: the mean, the features, the two weight matrices, the bias row. -/
abbrev aMean (c : Dev nD) : FVec Ideal S50000x128 .f32 := V c main_v54
abbrev aFeat (c : Dev nD) : FVec Ideal S50000x128 .f32 := V c main_v41
abbrev aWl (c : Dev nD) : FVec Ideal S128x128 .f32 := V c main_arg8
abbrev aWr (c : Dev nD) : FVec Ideal S128x128 .f32 := V c main_arg9
abbrev aBias (c : Dev nD) : FVec Ideal S1x128 .f32 := V c main_v55

/-- What the output array ends holding: the layer, which has no activation, of the entry arrays. -/
def G (c : Dev nD) : FVec Ideal S50000x128 .f32 :=
  Cert.Sage.lin (aMean V c) (aFeat V c) (aWl V c) (aWr V c) (aBias V c)

theorem hz : (![0, 0] : Fin 2 → Nat) = fun _ => 0 := funext fun a => by fin_cases a <;> rfl

theorem lt_ten (t : Fin cfg2.N) : t.val < 10 := Nat.lt_of_lt_of_eq t.isLt N_2

/-- The printed index maps over the grid: the three row-blocked windows sit at block `(t, 0)`, the three whole ones at `(0, 0)`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-! ## Each window's block at an entry -/

/-- The mean's block at point `t`, entry `(p, k)`: row `5000 t + p` of the array. -/
theorem blkMean (c : Dev nD) (t : Fin cfg2.N) (p : Fin 5000) (k : Fin 128) :
    (iblk2 V c 0 t : FVec Ideal S5000x128 .f32) (ix2 p k)
      = aMean V c (ix2 (⟨t.val * 5000 + p.val, by have := lt_ten t; have := p.isLt; omega⟩ : Fin 50000) k) := by
  obtain ⟨e0, e1, -⟩ := idx_facts t
  unfold iblk2
  rw [View.read_apply]
  show V c main_v54 _ = V c main_v54 _
  refine congrArg (V c main_v54) ?_
  funext a; apply Fin.ext
  match a with
  | ⟨0, _⟩ => show win2_0.index t (0 : Fin 2) * 5000 + 1 * p.val = t.val * 5000 + p.val; rw [e0]; omega
  | ⟨1, _⟩ => show win2_0.index t (1 : Fin 2) * 128 + 1 * k.val = k.val; rw [e1]; omega

/-- The features' block at point `t`, entry `(p, k)`: row `5000 t + p` of the array. -/
theorem blkFeat (c : Dev nD) (t : Fin cfg2.N) (p : Fin 5000) (k : Fin 128) :
    (iblk2 V c 1 t : FVec Ideal S5000x128 .f32) (ix2 p k)
      = aFeat V c (ix2 (⟨t.val * 5000 + p.val, by have := lt_ten t; have := p.isLt; omega⟩ : Fin 50000) k) := by
  obtain ⟨-, -, e0, e1, -⟩ := idx_facts t
  unfold iblk2
  rw [View.read_apply]
  show V c main_v41 _ = V c main_v41 _
  refine congrArg (V c main_v41) ?_
  funext a; apply Fin.ext
  match a with
  | ⟨0, _⟩ => show win2_1.index t (0 : Fin 2) * 5000 + 1 * p.val = t.val * 5000 + p.val; rw [e0]; omega
  | ⟨1, _⟩ => show win2_1.index t (1 : Fin 2) * 128 + 1 * k.val = k.val; rw [e1]; omega

/-- The left weights' block is the whole matrix. -/
theorem blkWl (c : Dev nD) (t : Fin cfg2.N) (k q : Fin 128) :
    (iblk2 V c 2 t : FVec Ideal S128x128 .f32) (ix2 k q) = aWl V c (ix2 k q) := by
  obtain ⟨-, -, -, -, e0, e1, -⟩ := idx_facts t
  unfold iblk2
  rw [View.read_apply]
  show V c main_arg8 _ = V c main_arg8 _
  refine congrArg (V c main_arg8) ?_
  funext a; apply Fin.ext
  match a with
  | ⟨0, _⟩ => show win2_2.index t (0 : Fin 2) * 128 + 1 * k.val = k.val; rw [e0]; omega
  | ⟨1, _⟩ => show win2_2.index t (1 : Fin 2) * 128 + 1 * q.val = q.val; rw [e1]; omega

/-- The right weights' block is the whole matrix. -/
theorem blkWr (c : Dev nD) (t : Fin cfg2.N) (k q : Fin 128) :
    (iblk2 V c 3 t : FVec Ideal S128x128 .f32) (ix2 k q) = aWr V c (ix2 k q) := by
  obtain ⟨-, -, -, -, -, -, e0, e1, -⟩ := idx_facts t
  unfold iblk2
  rw [View.read_apply]
  show V c main_arg9 _ = V c main_arg9 _
  refine congrArg (V c main_arg9) ?_
  funext a; apply Fin.ext
  match a with
  | ⟨0, _⟩ => show win2_3.index t (0 : Fin 2) * 128 + 1 * k.val = k.val; rw [e0]; omega
  | ⟨1, _⟩ => show win2_3.index t (1 : Fin 2) * 128 + 1 * q.val = q.val; rw [e1]; omega

/-- The bias row's block is the whole row. -/
theorem blkBias (c : Dev nD) (t : Fin cfg2.N) (u : Fin 1) (q : Fin 128) :
    (iblk2 V c 4 t : FVec Ideal S1x128 .f32) (ix2 u q) = aBias V c (ix2 u q) := by
  obtain ⟨-, -, -, -, -, -, -, -, e0, e1, -⟩ := idx_facts t
  unfold iblk2
  rw [View.read_apply]
  show V c main_v55 _ = V c main_v55 _
  refine congrArg (V c main_v55) ?_
  funext a; apply Fin.ext
  match a with
  | ⟨0, _⟩ => show win2_4.index t (0 : Fin 2) * 1 + 1 * u.val = u.val; rw [e0]; omega
  | ⟨1, _⟩ => show win2_4.index t (1 : Fin 2) * 128 + 1 * q.val = q.val; rw [e1]; omega

/-! ## What a point writes back, the cover, the array -/

/-- Entry `(p, q)` of the output's block at point `t` is entry `(5000 t + p, q)` of the array. -/
theorem emb_out (t : Fin cfg2.N) (p : Fin 5000) (q : Fin 128) :
    ((cfg2.win 5).blk t).view.emb (ix2 p q)
      = ix2 (⟨t.val * 5000 + p.val, by have := lt_ten t; have := p.isLt; omega⟩ : Fin 50000) q := by
  obtain ⟨-, -, -, -, -, -, -, -, -, -, e0, e1⟩ := idx_facts t
  funext a; apply Fin.ext
  match a with
  | ⟨0, _⟩ => show win2_5.index t (0 : Fin 2) * 5000 + 1 * p.val = t.val * 5000 + p.val; rw [e0]; omega
  | ⟨1, _⟩ => show win2_5.index t (1 : Fin 2) * 128 + 1 * q.val = q.val; rw [e1]; omega

/-- WHAT POINT `t` WRITES BACK is block `t` of the layer function of the whole entry arrays. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  show k2_pay1 (F := Ideal) (iblk2 V c 0 t) (iblk2 V c 1 t) (iblk2 V c 2 t) (iblk2 V c 3 t) (iblk2 V c 4 t) (ix2 p q)
      = G V c (((cfg2.win 5).blk t).view.emb (ix2 p q))
  refine (Cert.Sage.Body.pay2_apply _ _ _ _ _ p q).trans ?_
  rw [emb_out]
  simp only [blkMean, blkFeat, blkWl, blkWr, blkBias]
  rfl

/-- An index of the array is in point `t`'s block iff each coordinate is in the block's range on its axis. -/
theorem mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v56).slice (win2_5.rect t)).set ↔ _
  rw [View.set_slice_whole, Rect.mem_set_unit]
  exact Iff.rfl

/-- Every row lies in the block of the point `row / 5000`. -/
theorem cover (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, -, -, -, -, -, -, e0, e1⟩ := idx_facts t
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; rw [e0, ht]; omega
  | ⟨1, _⟩ => show win2_5.index t (1 : Fin 2) * 128 ≤ (i 1).val ∧ (i 1).val < win2_5.index t (1 : Fin 2) * 128 + 128; rw [e1]; omega

/-- THE OUTPUT ARRAY after the region: the layer, which has no activation, of the entry arrays. -/
theorem final (c : Dev nD) : (dat2 V c).arrAt 5 cfg2.N = G V c :=
  (dat2 V c).arrAt_eq_of_cover 5 (G V c) (fun t _ => flushed_eq V c t) (cover)

end Cert.Sage.R2

end
-- ==== Proof.HostStretch.lean ====
/-
  The three stretches of host operations before the three pallas_calls, each as a function of the buffer contents it
  starts from.  Every stretch forms the layer's mean as the neighbour sum of the current features times the spread
  reciprocal divisor, and reshapes the layer's bias into a row; the first stretch also cuts the edge array into its source
  and destination columns and computes the reciprocal divisor `1 / max(deg, 1)` once, for all three layers.  The later
  stretches reuse those three buffers and read the features the previous pallas_call wrote.
-/
import proofs.«154858_j86947317940720_1_alg».proof.Proof.Gen.KernelIdeal.Launch
import proofs.«154858_j86947317940720_1_alg».proof.Proof.Spec
import Idealize.ShloMosaic.Lib.StableHlo.Run

set_option maxRecDepth 16384

noncomputable section

namespace Cert.Sage.Host

open Cert.KernelIdeal Cert.KernelIdeal.Gen Idealize.ShloMosaic Idealize.ShloMosaic.TcCoe Idealize.SL.Sem Idealize.ShloMosaic.StableHlo

/-- The mean as the neighbour sum times a spread per-node factor `iv` held in a buffer. -/
def meanWith (h : FVec Ideal S50000x128 .f32) (s d : Vec Ideal S800000 .i32) (iv : FVec Ideal S50000 .f32) : FVec Ideal S50000x128 .f32 :=
  mulf (F := Ideal) (Cert.Sage.agg h s d) (Cert.Sage.spread iv)

/-- With the reciprocal divisor for `iv` it is the product form of the mean. -/
theorem meanWith_inv (h : FVec Ideal S50000x128 .f32) (s d : Vec Ideal S800000 .i32) :
    meanWith h s d (Cert.Sage.inv d) = Cert.Sage.meanMul h s d := rfl

/-- A buffer none of a stretch's operations writes keeps its contents. -/
macro "host_keeps" ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

variable (W : Valuation τ sig (Elt Ideal))

/-! ## The first stretch -/

theorem s0_src : (StableHlo.after hostOps0 W (Proc.devRef .tc main_v1) : Vec Ideal S800000 .i32)
    = Cert.Sage.src1 (W (Proc.devRef .tc main_arg1)) := by
  after_results; rfl

theorem s0_dst : (StableHlo.after hostOps0 W (Proc.devRef .tc main_v3) : Vec Ideal S800000 .i32)
    = Cert.Sage.dst1 (W (Proc.devRef .tc main_arg1)) := by
  after_results; rfl

theorem s0_inv : (StableHlo.after hostOps0 W (Proc.devRef .tc main_v11) : FVec Ideal S50000 .f32)
    = Cert.Sage.inv (Cert.Sage.dst1 (W (Proc.devRef .tc main_arg1))) := by
  after_results; rfl

set_option maxHeartbeats 1000000 in
theorem s0_mean : (StableHlo.after hostOps0 W (Proc.devRef .tc main_v24) : FVec Ideal S50000x128 .f32)
    = Cert.Sage.meanMul (W (Proc.devRef .tc main_arg0)) (Cert.Sage.src1 (W (Proc.devRef .tc main_arg1))) (Cert.Sage.dst1 (W (Proc.devRef .tc main_arg1))) := by
  after_results_simp
  unfold Cert.Sage.meanMul Cert.Sage.agg Cert.Sage.spread Cert.Sage.inv Cert.Sage.den Cert.Sage.deg Cert.Sage.dstCol Cert.Sage.srcCol Cert.Sage.src1 Cert.Sage.dst1
  rfl

theorem s0_row : (StableHlo.after hostOps0 W (Proc.devRef .tc main_v25) : FVec Ideal S1x128 .f32)
    = Cert.Sage.row (W (Proc.devRef .tc main_arg4)) := by
  after_results; rfl

/-- The first stretch writes no argument. -/
theorem s0_keeps (b : Ref sig .tc) (hb : b = main_arg0 ∨ b = main_arg1 ∨ b = main_arg2 ∨ b = main_arg3 ∨ b = main_arg4 ∨ b = main_arg5
      ∨ b = main_arg6 ∨ b = main_arg7 ∨ b = main_arg8 ∨ b = main_arg9 ∨ b = main_arg10) :
    StableHlo.after hostOps0 W (Proc.devRef .tc b) = W (Proc.devRef .tc b) := by
  rcases hb with rfl | rfl | rfl | rfl | rfl | rfl | rfl | rfl | rfl | rfl | rfl <;> host_keeps hostOps0

/-! ## The second stretch -/

set_option maxHeartbeats 1000000 in
theorem s1_mean : (StableHlo.after hostOps1 W (Proc.devRef .tc main_v39) : FVec Ideal S50000x128 .f32)
    = meanWith (W (Proc.devRef .tc main_v26)) (W (Proc.devRef .tc main_v1)) (W (Proc.devRef .tc main_v3)) (W (Proc.devRef .tc main_v11)) := by
  after_results_simp
  unfold meanWith Cert.Sage.agg Cert.Sage.spread Cert.Sage.dstCol Cert.Sage.srcCol
  rfl

theorem s1_row : (StableHlo.after hostOps1 W (Proc.devRef .tc main_v40) : FVec Ideal S1x128 .f32)
    = Cert.Sage.row (W (Proc.devRef .tc main_arg7)) := by
  after_results; rfl

/-- The second stretch writes neither an argument nor the columns, the reciprocal divisor or the first layer's output. -/
theorem s1_keeps (b : Ref sig .tc) (hb : b = main_arg5 ∨ b = main_arg6 ∨ b = main_arg7 ∨ b = main_arg8 ∨ b = main_arg9 ∨ b = main_arg10
      ∨ b = main_v1 ∨ b = main_v3 ∨ b = main_v11 ∨ b = main_v26) :
    StableHlo.after hostOps1 W (Proc.devRef .tc b) = W (Proc.devRef .tc b) := by
  rcases hb with rfl | rfl | rfl | rfl | rfl | rfl | rfl | rfl | rfl | rfl <;> host_keeps hostOps1

/-! ## The third stretch -/

set_option maxHeartbeats 1000000 in
theorem s2_mean : (StableHlo.after hostOps2 W (Proc.devRef .tc main_v54) : FVec Ideal S50000x128 .f32)
    = meanWith (W (Proc.devRef .tc main_v41)) (W (Proc.devRef .tc main_v1)) (W (Proc.devRef .tc main_v3)) (W (Proc.devRef .tc main_v11)) := by
  after_results_simp
  unfold meanWith Cert.Sage.agg Cert.Sage.spread Cert.Sage.dstCol Cert.Sage.srcCol
  rfl

theorem s2_row : (StableHlo.after hostOps2 W (Proc.devRef .tc main_v55) : FVec Ideal S1x128 .f32)
    = Cert.Sage.row (W (Proc.devRef .tc main_arg10)) := by
  after_results; rfl

/-- The third stretch writes neither an argument nor the second layer's output. -/
theorem s2_keeps (b : Ref sig .tc) (hb : b = main_arg8 ∨ b = main_arg9 ∨ b = main_arg10 ∨ b = main_v41) :
    StableHlo.after hostOps2 W (Proc.devRef .tc b) = W (Proc.devRef .tc b) := by
  rcases hb with rfl | rfl | rfl | rfl <;> host_keeps hostOps2

end Cert.Sage.Host

end
-- ==== Proof.KernelValue.lean ====
/-
  The kernel program's result, walked through the run.  @main is three stretches of host operations, each followed by a
  pallas_call; the buffer contents at the six boundaries are a fold from the launch memory.  Followed through that fold:
  the edge columns, the reciprocal divisor and every argument keep their contents once written (no later stretch and no
  pallas_call writes them); each stretch leaves the layer's mean, in product form, of the features the previous
  pallas_call wrote; each pallas_call leaves the dense layer of its entry arrays.  So the result is the network with
  every mean in product form — and the product form is the quotient form (the law of the specification), which makes it
  the network the reference computes.
-/
import proofs.«154858_j86947317940720_1_alg».proof.Proof.Gen.KernelIdeal.Frame
import proofs.«154858_j86947317940720_1_alg».proof.Proof.Spec
import proofs.«154858_j86947317940720_1_alg».proof.Proof.Region0
import proofs.«154858_j86947317940720_1_alg».proof.Proof.Region1
import proofs.«154858_j86947317940720_1_alg».proof.Proof.Region2
import proofs.«154858_j86947317940720_1_alg».proof.Proof.HostStretch

set_option maxRecDepth 16384

noncomputable section

namespace Cert.Sage.Kernel

open Cert.KernelIdeal Cert.KernelIdeal.Gen Idealize.ShloMosaic Idealize.ShloMosaic.TcCoe Idealize.SL.Sem
open Cert.Sage Cert.Sage.Host

variable (m : (ℓ : Loc nD τ sig) → Buf (Elt Ideal) ℓ) (ρ : Dev nD → PrngReg) (c : Dev nD)

/-! ## The launch contents, named -/

/-- The edge array as launched, and its two columns. -/
abbrev edges : Vec Ideal S2x800000 .i32 := (m ((c : Thread nD τ).loc main_arg1))
abbrev srcs : Vec Ideal S800000 .i32 := src1 (edges m c)
abbrev dsts : Vec Ideal S800000 .i32 := dst1 (edges m c)
/-- The input features. -/
abbrev feat0 : FVec Ideal S50000x128 .f32 := (m ((c : Thread nD τ).loc main_arg0))

/-- The features after layer 0, after layer 1, and the result, every mean in product form. -/
def feat1 : FVec Ideal S50000x128 .f32 :=
  act (lin (meanMul (feat0 m c) (srcs m c) (dsts m c)) (feat0 m c) (m ((c : Thread nD τ).loc main_arg2)) (m ((c : Thread nD τ).loc main_arg3)) (row (m ((c : Thread nD τ).loc main_arg4))))
def feat2 : FVec Ideal S50000x128 .f32 :=
  act (lin (meanMul (feat1 m c) (srcs m c) (dsts m c)) (feat1 m c) (m ((c : Thread nD τ).loc main_arg5)) (m ((c : Thread nD τ).loc main_arg6)) (row (m ((c : Thread nD τ).loc main_arg7))))
def result : FVec Ideal S50000x128 .f32 :=
  lin (meanMul (feat2 m c) (srcs m c) (dsts m c)) (feat2 m c) (m ((c : Thread nD τ).loc main_arg8)) (m ((c : Thread nD τ).loc main_arg9)) (row (m ((c : Thread nD τ).loc main_arg10)))

/-! ## Boundary 1: after the first stretch -/

theorem w1_arg (b : Ref sig .tc) (hb : b = main_arg0 ∨ b = main_arg1 ∨ b = main_arg2 ∨ b = main_arg3 ∨ b = main_arg4 ∨ b = main_arg5
      ∨ b = main_arg6 ∨ b = main_arg7 ∨ b = main_arg8 ∨ b = main_arg9 ∨ b = main_arg10) :
    W1 m ρ c (Proc.devRef .tc b) = m ((c : Thread nD τ).loc b) := s0_keeps (W0 m ρ c) b hb
theorem w1_src : (W1 m ρ c (Proc.devRef .tc main_v1) : Vec Ideal S800000 .i32) = srcs m c := s0_src (W0 m ρ c)
theorem w1_dst : (W1 m ρ c (Proc.devRef .tc main_v3) : Vec Ideal S800000 .i32) = dsts m c := s0_dst (W0 m ρ c)
theorem w1_inv : (W1 m ρ c (Proc.devRef .tc main_v11) : FVec Ideal S50000 .f32) = inv (dsts m c) := s0_inv (W0 m ρ c)
theorem w1_mean : (W1 m ρ c (Proc.devRef .tc main_v24) : FVec Ideal S50000x128 .f32) = meanMul (feat0 m c) (srcs m c) (dsts m c) :=
  s0_mean (W0 m ρ c)
theorem w1_row : (W1 m ρ c (Proc.devRef .tc main_v25) : FVec Ideal S1x128 .f32) = row (m ((c : Thread nD τ).loc main_arg4)) := s0_row (W0 m ρ c)

/-! ## Boundary 2: after the first pallas_call -/

/-- The first pallas_call's entry arrays are boundary 1's, so its output is the features after layer 0. -/
theorem w2_out : (W2 m ρ c (Proc.devRef .tc main_v26) : FVec Ideal S50000x128 .f32) = feat1 m c := by
  refine (W2_arr m ρ c 5).trans ((R0.final (V1 m ρ) c).trans ?_)
  unfold R0.G R0.aMean R0.aFeat R0.aWl R0.aWr R0.aBias feat1
  rw [show (V1 m ρ c main_v24 : FVec Ideal S50000x128 .f32) = _ from w1_mean m ρ c,
    show (V1 m ρ c main_arg0 : FVec Ideal S50000x128 .f32) = _ from w1_arg m ρ c main_arg0 (by simp),
    show (V1 m ρ c main_arg2 : FVec Ideal S128x128 .f32) = _ from w1_arg m ρ c main_arg2 (by simp),
    show (V1 m ρ c main_arg3 : FVec Ideal S128x128 .f32) = _ from w1_arg m ρ c main_arg3 (by simp),
    show (V1 m ρ c main_v25 : FVec Ideal S1x128 .f32) = _ from w1_row m ρ c]

theorem w2_src : (W2 m ρ c (Proc.devRef .tc main_v1) : Vec Ideal S800000 .i32) = srcs m c :=
  (W2_of_ne m ρ c main_v1 (by decide)).trans (w1_src m ρ c)
theorem w2_dst : (W2 m ρ c (Proc.devRef .tc main_v3) : Vec Ideal S800000 .i32) = dsts m c :=
  (W2_of_ne m ρ c main_v3 (by decide)).trans (w1_dst m ρ c)
theorem w2_inv : (W2 m ρ c (Proc.devRef .tc main_v11) : FVec Ideal S50000 .f32) = inv (dsts m c) :=
  (W2_of_ne m ρ c main_v11 (by decide)).trans (w1_inv m ρ c)
theorem w2_arg (b : Ref sig .tc) (hb : b = main_arg5 ∨ b = main_arg6 ∨ b = main_arg7 ∨ b = main_arg8 ∨ b = main_arg9 ∨ b = main_arg10) :
    W2 m ρ c (Proc.devRef .tc b) = m ((c : Thread nD τ).loc b) := by
  rcases hb with rfl | rfl | rfl | rfl | rfl | rfl
  all_goals exact (W2_of_ne m ρ c _ (by decide)).trans (w1_arg m ρ c _ (by simp))

/-! ## Boundary 3: after the second stretch -/

theorem w3_mean : (W3 m ρ c (Proc.devRef .tc main_v39) : FVec Ideal S50000x128 .f32) = meanMul (feat1 m c) (srcs m c) (dsts m c) := by
  refine (s1_mean (W2 m ρ c)).trans ?_
  rw [w2_out m ρ c, w2_src m ρ c, w2_dst m ρ c, w2_inv m ρ c]
  exact meanWith_inv _ _ _
theorem w3_out : (W3 m ρ c (Proc.devRef .tc main_v26) : FVec Ideal S50000x128 .f32) = feat1 m c :=
  (s1_keeps (W2 m ρ c) main_v26 (by simp)).trans (w2_out m ρ c)
theorem w3_row : (W3 m ρ c (Proc.devRef .tc main_v40) : FVec Ideal S1x128 .f32) = row (m ((c : Thread nD τ).loc main_arg7)) := by
  refine (s1_row (W2 m ρ c)).trans ?_
  rw [w2_arg m ρ c main_arg7 (by simp)]
theorem w3_src : (W3 m ρ c (Proc.devRef .tc main_v1) : Vec Ideal S800000 .i32) = srcs m c :=
  (s1_keeps (W2 m ρ c) main_v1 (by simp)).trans (w2_src m ρ c)
theorem w3_dst : (W3 m ρ c (Proc.devRef .tc main_v3) : Vec Ideal S800000 .i32) = dsts m c :=
  (s1_keeps (W2 m ρ c) main_v3 (by simp)).trans (w2_dst m ρ c)
theorem w3_inv : (W3 m ρ c (Proc.devRef .tc main_v11) : FVec Ideal S50000 .f32) = inv (dsts m c) :=
  (s1_keeps (W2 m ρ c) main_v11 (by simp)).trans (w2_inv m ρ c)
theorem w3_arg (b : Ref sig .tc) (hb : b = main_arg5 ∨ b = main_arg6 ∨ b = main_arg8 ∨ b = main_arg9 ∨ b = main_arg10) :
    W3 m ρ c (Proc.devRef .tc b) = m ((c : Thread nD τ).loc b) := by
  rcases hb with rfl | rfl | rfl | rfl | rfl
  all_goals exact (s1_keeps (W2 m ρ c) _ (by simp)).trans (w2_arg m ρ c _ (by simp))

/-! ## Boundary 4: after the second pallas_call -/

theorem w4_out : (W4 m ρ c (Proc.devRef .tc main_v41) : FVec Ideal S50000x128 .f32) = feat2 m c := by
  refine (W4_arr m ρ c 5).trans ((R1.final (V3 m ρ) c).trans ?_)
  unfold R1.G R1.aMean R1.aFeat R1.aWl R1.aWr R1.aBias feat2
  rw [show (V3 m ρ c main_v39 : FVec Ideal S50000x128 .f32) = _ from w3_mean m ρ c,
    show (V3 m ρ c main_v26 : FVec Ideal S50000x128 .f32) = _ from w3_out m ρ c,
    show (V3 m ρ c main_arg5 : FVec Ideal S128x128 .f32) = _ from w3_arg m ρ c main_arg5 (by simp),
    show (V3 m ρ c main_arg6 : FVec Ideal S128x128 .f32) = _ from w3_arg m ρ c main_arg6 (by simp),
    show (V3 m ρ c main_v40 : FVec Ideal S1x128 .f32) = _ from w3_row m ρ c]

theorem w4_src : (W4 m ρ c (Proc.devRef .tc main_v1) : Vec Ideal S800000 .i32) = srcs m c :=
  (W4_of_ne m ρ c main_v1 (by decide)).trans (w3_src m ρ c)
theorem w4_dst : (W4 m ρ c (Proc.devRef .tc main_v3) : Vec Ideal S800000 .i32) = dsts m c :=
  (W4_of_ne m ρ c main_v3 (by decide)).trans (w3_dst m ρ c)
theorem w4_inv : (W4 m ρ c (Proc.devRef .tc main_v11) : FVec Ideal S50000 .f32) = inv (dsts m c) :=
  (W4_of_ne m ρ c main_v11 (by decide)).trans (w3_inv m ρ c)
theorem w4_arg (b : Ref sig .tc) (hb : b = main_arg8 ∨ b = main_arg9 ∨ b = main_arg10) :
    W4 m ρ c (Proc.devRef .tc b) = m ((c : Thread nD τ).loc b) := by
  rcases hb with rfl | rfl | rfl
  all_goals exact (W4_of_ne m ρ c _ (by decide)).trans (w3_arg m ρ c _ (by simp))

/-! ## Boundary 5: after the third stretch -/

theorem w5_mean : (W5 m ρ c (Proc.devRef .tc main_v54) : FVec Ideal S50000x128 .f32) = meanMul (feat2 m c) (srcs m c) (dsts m c) := by
  refine (s2_mean (W4 m ρ c)).trans ?_
  rw [w4_out m ρ c, w4_src m ρ c, w4_dst m ρ c, w4_inv m ρ c]
  exact meanWith_inv _ _ _
theorem w5_out : (W5 m ρ c (Proc.devRef .tc main_v41) : FVec Ideal S50000x128 .f32) = feat2 m c :=
  (s2_keeps (W4 m ρ c) main_v41 (by simp)).trans (w4_out m ρ c)
theorem w5_row : (W5 m ρ c (Proc.devRef .tc main_v55) : FVec Ideal S1x128 .f32) = row (m ((c : Thread nD τ).loc main_arg10)) := by
  refine (s2_row (W4 m ρ c)).trans ?_
  rw [w4_arg m ρ c main_arg10 (by simp)]
theorem w5_arg (b : Ref sig .tc) (hb : b = main_arg8 ∨ b = main_arg9) :
    W5 m ρ c (Proc.devRef .tc b) = m ((c : Thread nD τ).loc b) := by
  rcases hb with rfl | rfl
  all_goals exact (s2_keeps (W4 m ρ c) _ (by simp)).trans (w4_arg m ρ c _ (by simp))

/-! ## Boundary 6: the result -/

/-- The result buffer at the end of the run: the network with every mean in product form. -/
theorem w6_out : (W6 m ρ c (Proc.devRef .tc main_v56) : FVec Ideal S50000x128 .f32) = result m c := by
  refine (W6_arr m ρ c 5).trans ((R2.final (V5 m ρ) c).trans ?_)
  unfold R2.G R2.aMean R2.aFeat R2.aWl R2.aWr R2.aBias result
  rw [show (V5 m ρ c main_v54 : FVec Ideal S50000x128 .f32) = _ from w5_mean m ρ c,
    show (V5 m ρ c main_v41 : FVec Ideal S50000x128 .f32) = _ from w5_out m ρ c,
    show (V5 m ρ c main_arg8 : FVec Ideal S128x128 .f32) = _ from w5_arg m ρ c main_arg8 (by simp),
    show (V5 m ρ c main_arg9 : FVec Ideal S128x128 .f32) = _ from w5_arg m ρ c main_arg9 (by simp),
    show (V5 m ρ c main_v55 : FVec Ideal S1x128 .f32) = _ from w5_row m ρ c]

/-- With the product means turned into quotient means it is the specification's network of the launch arrays. -/
theorem result_eq_net : result m c = net (feat0 m c) (edges m c) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  unfold result feat2 feat1 net hidden
  simp only [mean_eq]

end Cert.Sage.Kernel

end
-- ==== Proof.RefValue.lean ====
/-
  The reference program, stage by stage, is the network of the specification.  Its edge columns, neighbour sums,
  degrees and quotient means are the very host operations the specification names, on the same operands (so those
  equations hold by unfolding the stages' definitions); each of its three dense stages is read entry by entry: a
  `dot_general` contracting the feature axis is the sum over `k` of `lhs (r, k) · rhs (k, q)`, the bias is spread
  over the rows, and `relu` is the maximum with zero.
-/
import proofs.«154858_j86947317940720_1_alg».proof.Proof.Gen.ReferenceIdeal.Read
import proofs.«154858_j86947317940720_1_alg».proof.Proof.Spec
import Idealize.ShloMosaic.Lib.ValueLayout

set_option maxRecDepth 16384

noncomputable section

namespace Cert.Sage.Ref

open Idealize.ShloMosaic Idealize.ShloMosaic.ValueIdx
open Cert.ReferenceIdeal Cert.ReferenceIdeal.Read

/-! ## The means: the same host operations on the same operands -/

/-- Layer 0's quotient mean is the specification's, of the input features. -/
theorem mean0_eq (x0 : FVec Ideal S50000x128 .f32) (x1 : Vec Ideal S2x800000 .i32) :
    val_main_v22 (F := Ideal) x0 x1 = Cert.Sage.meanDiv x0 (Cert.Sage.src1 x1) (Cert.Sage.dst1 x1) := rfl

/-- Layer 1's quotient mean is the specification's, of layer 0's output. -/
theorem mean1_eq (x0 : FVec Ideal S50000x128 .f32) (x1 : Vec Ideal S2x800000 .i32) (x2 x3 : FVec Ideal S128x128 .f32) (x4 : FVec Ideal S128 .f32) :
    val_main_v48 (F := Ideal) x0 x1 x2 x3 x4
      = Cert.Sage.meanDiv (val_main_v29 (F := Ideal) x0 x1 x2 x3 x4) (Cert.Sage.src1 x1) (Cert.Sage.dst1 x1) := rfl

/-- Layer 2's quotient mean is the specification's, of layer 1's output. -/
theorem mean2_eq (x0 : FVec Ideal S50000x128 .f32) (x1 : Vec Ideal S2x800000 .i32) (x2 x3 : FVec Ideal S128x128 .f32) (x4 : FVec Ideal S128 .f32) (x5 x6 : FVec Ideal S128x128 .f32) (x7 : FVec Ideal S128 .f32) :
    val_main_v74 (F := Ideal) x0 x1 x2 x3 x4 x5 x6 x7
      = Cert.Sage.meanDiv (val_main_v55 (F := Ideal) x0 x1 x2 x3 x4 x5 x6 x7) (Cert.Sage.src1 x1) (Cert.Sage.dst1 x1) := rfl

/-! ## The dense stages, entry by entry -/

/-- Layer 0 with its activation. -/
theorem layer0_eq (x0 : FVec Ideal S50000x128 .f32) (x1 : Vec Ideal S2x800000 .i32) (x2 x3 : FVec Ideal S128x128 .f32) (x4 : FVec Ideal S128 .f32) :
    val_main_v29 (F := Ideal) x0 x1 x2 x3 x4 = Cert.Sage.act (Cert.Sage.lin (val_main_v22 (F := Ideal) x0 x1) (x0) x2 x3 (Cert.Sage.row x4)) := by
  funext i
  rw [val_main_v29_apply, val_main_v28_apply, val_main_v25_apply, val_main_v23_apply, val_main_v24_apply, val_main_v27_apply, val_main_v26_apply, val_main_call0_v0_apply, val_main_call0_cst_apply]
  have hl1 : ∀ k : Fin 128, lidx_main_v23 i k = ix2 (⟨(i 0).val, (i 0).isLt⟩ : Fin 50000) k := fun k => funext fun a => by
    match a with | ⟨0, _⟩ => rfl | ⟨1, _⟩ => rfl
  have hr1 : ∀ k : Fin 128, ridx_main_v23 i k = ix2 k (⟨(i 1).val, (i 1).isLt⟩ : Fin 128) := fun k => funext fun a => by
    match a with | ⟨0, _⟩ => rfl | ⟨1, _⟩ => rfl
  have hl2 : ∀ k : Fin 128, lidx_main_v24 i k = ix2 (⟨(i 0).val, (i 0).isLt⟩ : Fin 50000) k := fun k => funext fun a => by
    match a with | ⟨0, _⟩ => rfl | ⟨1, _⟩ => rfl
  have hr2 : ∀ k : Fin 128, ridx_main_v24 i k = ix2 k (⟨(i 1).val, (i 1).isLt⟩ : Fin 128) := fun k => funext fun a => by
    match a with | ⟨0, _⟩ => rfl | ⟨1, _⟩ => rfl
  have hb : x4 (idx_main_v26 (idx_main_v27 i)) = Cert.Sage.row x4 (ix2 (⟨0, Nat.one_pos⟩ : Fin 1) (⟨(i 1).val, (i 1).isLt⟩ : Fin 128)) := by
    unfold Cert.Sage.row
    rw [shapeCast_a_1a_apply]
    refine congrArg x4 (funext fun a => ?_)
    match a with | ⟨0, _⟩ => rfl
  simp only [hl1, hr1, hl2, hr2, hb]
  rfl

/-- Layer 1 with its activation. -/
theorem layer1_eq (x0 : FVec Ideal S50000x128 .f32) (x1 : Vec Ideal S2x800000 .i32) (x2 x3 : FVec Ideal S128x128 .f32) (x4 : FVec Ideal S128 .f32) (x5 x6 : FVec Ideal S128x128 .f32) (x7 : FVec Ideal S128 .f32) :
    val_main_v55 (F := Ideal) x0 x1 x2 x3 x4 x5 x6 x7 = Cert.Sage.act (Cert.Sage.lin (val_main_v48 (F := Ideal) x0 x1 x2 x3 x4) (val_main_v29 (F := Ideal) x0 x1 x2 x3 x4) x5 x6 (Cert.Sage.row x7)) := by
  funext i
  rw [val_main_v55_apply, val_main_v54_apply, val_main_v51_apply, val_main_v49_apply, val_main_v50_apply, val_main_v53_apply, val_main_v52_apply, val_main_call1_v0_apply, val_main_call1_cst_apply]
  have hl1 : ∀ k : Fin 128, lidx_main_v49 i k = ix2 (⟨(i 0).val, (i 0).isLt⟩ : Fin 50000) k := fun k => funext fun a => by
    match a with | ⟨0, _⟩ => rfl | ⟨1, _⟩ => rfl
  have hr1 : ∀ k : Fin 128, ridx_main_v49 i k = ix2 k (⟨(i 1).val, (i 1).isLt⟩ : Fin 128) := fun k => funext fun a => by
    match a with | ⟨0, _⟩ => rfl | ⟨1, _⟩ => rfl
  have hl2 : ∀ k : Fin 128, lidx_main_v50 i k = ix2 (⟨(i 0).val, (i 0).isLt⟩ : Fin 50000) k := fun k => funext fun a => by
    match a with | ⟨0, _⟩ => rfl | ⟨1, _⟩ => rfl
  have hr2 : ∀ k : Fin 128, ridx_main_v50 i k = ix2 k (⟨(i 1).val, (i 1).isLt⟩ : Fin 128) := fun k => funext fun a => by
    match a with | ⟨0, _⟩ => rfl | ⟨1, _⟩ => rfl
  have hb : x7 (idx_main_v52 (idx_main_v53 i)) = Cert.Sage.row x7 (ix2 (⟨0, Nat.one_pos⟩ : Fin 1) (⟨(i 1).val, (i 1).isLt⟩ : Fin 128)) := by
    unfold Cert.Sage.row
    rw [shapeCast_a_1a_apply]
    refine congrArg x7 (funext fun a => ?_)
    match a with | ⟨0, _⟩ => rfl
  simp only [hl1, hr1, hl2, hr2, hb]
  rfl

/-- Layer 2, which has no activation. -/
theorem layer2_eq (x0 : FVec Ideal S50000x128 .f32) (x1 : Vec Ideal S2x800000 .i32) (x2 x3 : FVec Ideal S128x128 .f32) (x4 : FVec Ideal S128 .f32) (x5 x6 : FVec Ideal S128x128 .f32) (x7 : FVec Ideal S128 .f32) (x8 x9 : FVec Ideal S128x128 .f32) (x10 : FVec Ideal S128 .f32) :
    val_main_v80 (F := Ideal) x0 x1 x2 x3 x4 x5 x6 x7 x8 x9 x10 = Cert.Sage.lin (val_main_v74 (F := Ideal) x0 x1 x2 x3 x4 x5 x6 x7) (val_main_v55 (F := Ideal) x0 x1 x2 x3 x4 x5 x6 x7) x8 x9 (Cert.Sage.row x10) := by
  funext i
  rw [val_main_v80_apply, val_main_v77_apply, val_main_v75_apply, val_main_v76_apply, val_main_v79_apply, val_main_v78_apply]
  have hl1 : ∀ k : Fin 128, lidx_main_v75 i k = ix2 (⟨(i 0).val, (i 0).isLt⟩ : Fin 50000) k := fun k => funext fun a => by
    match a with | ⟨0, _⟩ => rfl | ⟨1, _⟩ => rfl
  have hr1 : ∀ k : Fin 128, ridx_main_v75 i k = ix2 k (⟨(i 1).val, (i 1).isLt⟩ : Fin 128) := fun k => funext fun a => by
    match a with | ⟨0, _⟩ => rfl | ⟨1, _⟩ => rfl
  have hl2 : ∀ k : Fin 128, lidx_main_v76 i k = ix2 (⟨(i 0).val, (i 0).isLt⟩ : Fin 50000) k := fun k => funext fun a => by
    match a with | ⟨0, _⟩ => rfl | ⟨1, _⟩ => rfl
  have hr2 : ∀ k : Fin 128, ridx_main_v76 i k = ix2 k (⟨(i 1).val, (i 1).isLt⟩ : Fin 128) := fun k => funext fun a => by
    match a with | ⟨0, _⟩ => rfl | ⟨1, _⟩ => rfl
  have hb : x10 (idx_main_v78 (idx_main_v79 i)) = Cert.Sage.row x10 (ix2 (⟨0, Nat.one_pos⟩ : Fin 1) (⟨(i 1).val, (i 1).isLt⟩ : Fin 128)) := by
    unfold Cert.Sage.row
    rw [shapeCast_a_1a_apply]
    refine congrArg x10 (funext fun a => ?_)
    match a with | ⟨0, _⟩ => rfl
  simp only [hl1, hr1, hl2, hr2, hb]
  rfl

/-! ## The whole reference -/

/-- The reference's result is the network of the specification. -/
theorem net_eq (x0 : FVec Ideal S50000x128 .f32) (x1 : Vec Ideal S2x800000 .i32) (x2 x3 : FVec Ideal S128x128 .f32) (x4 : FVec Ideal S128 .f32) (x5 x6 : FVec Ideal S128x128 .f32) (x7 : FVec Ideal S128 .f32) (x8 x9 : FVec Ideal S128x128 .f32) (x10 : FVec Ideal S128 .f32) :
    val_main_v80 (F := Ideal) x0 x1 x2 x3 x4 x5 x6 x7 x8 x9 x10 = Cert.Sage.net x0 x1 x2 x3 x4 x5 x6 x7 x8 x9 x10 := by
  rw [layer2_eq, mean2_eq, layer1_eq, mean1_eq, layer0_eq, mean0_eq]
  rfl

end Cert.Sage.Ref

end
-- ==== Proof.lean ====
/-
  A three-layer GraphSAGE network with mean aggregation over 50000 nodes, 800000 edges and 128 features: the kernel
  program against its jnp reference, over the extended reals.

  Each layer is  out = mean · W_l + h · W_r + b  (followed by max(·, 0) in the first two layers), where `mean` is the
  neighbour sum of `h` along the edges divided by max(in-degree, 1).  The kernel program computes 1 / max(deg, 1) once,
  multiplies each layer's neighbour sum by it on the host, and forms the two matrix products, the bias and the
  activation in a pallas_call over ten blocks of 5000 rows; the reference divides the neighbour sum by max(deg, 1) and
  uses whole-array matrix products.  At the ideal instance a narrowing of format is the identity and a matrix product
  from a zero accumulator is the plain sum over the contracted axis, so a row block of the kernel's layer is the same
  rows of the reference's layer; and  a · (1 / y) = a / y  for every extended real `a` and every `y ≠ 0` (both are
  a · y⁻¹), with  y = max(deg, 1) ≥ 1  never zero.  Neither the finiteness of the inputs nor anything about the edge
  indices is used: the gather and the scatter-add are the same host operations on both sides.

  The pieces: the specification and the law (Spec), one block of a layer entry by entry (Body), each pallas_call as one
  function of its entry arrays (Region0, Region1, Region2), the host stretches between them (HostStretch), the run with
  the result named (KernelRun), the result walked back to the launch arrays (KernelValue), the reference read stage by
  stage (RefValue).  No ledger entry: the idealized kernel is the kernel's own text read at the ideal instance.
-/
import proofs.«154858_j86947317940720_1_alg».proof.Defs
import proofs.«154858_j86947317940720_1_alg».proof.Proof.Gen.Kernel
import proofs.«154858_j86947317940720_1_alg».proof.Proof.Gen.Kernel.Skeleton
import proofs.«154858_j86947317940720_1_alg».proof.Proof.Gen.Kernel.Launch
import proofs.«154858_j86947317940720_1_alg».proof.Proof.Gen.Kernel.Points
import proofs.«154858_j86947317940720_1_alg».proof.Proof.Gen.Kernel.Frame
import proofs.«154858_j86947317940720_1_alg».proof.Proof.Gen.KernelIdeal
import proofs.«154858_j86947317940720_1_alg».proof.Proof.Gen.KernelIdeal.Skeleton
import proofs.«154858_j86947317940720_1_alg».proof.Proof.Gen.KernelIdeal.Launch
import proofs.«154858_j86947317940720_1_alg».proof.Proof.Gen.KernelIdeal.Points
import proofs.«154858_j86947317940720_1_alg».proof.Proof.Gen.KernelIdeal.Frame
import proofs.«154858_j86947317940720_1_alg».proof.Proof.Gen.ReferenceIdeal
import proofs.«154858_j86947317940720_1_alg».proof.Proof.Gen.Pre_finite_inputs
import proofs.«154858_j86947317940720_1_alg».proof.Proof.Gen.ReferenceIdeal.Run
import proofs.«154858_j86947317940720_1_alg».proof.Proof.Gen.ReferenceIdeal.Read
import proofs.«154858_j86947317940720_1_alg».proof.Proof.KernelRun
import proofs.«154858_j86947317940720_1_alg».proof.Proof.KernelValue
import proofs.«154858_j86947317940720_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The kernel program runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the network of the specification, of arguments that agree. -/
theorem algebraic : Cert.algebraic_KernelIdeal_ReferenceIdeal := by
  intro m ρ m' ρ' _ hagree
  refine ⟨fun c => Cert.Sage.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans ((Cert.Sage.Kernel.w6_out m ρ c).trans (Cert.Sage.Kernel.result_eq_net m c)), (h c).2⟩)
      (Cert.KernelIdeal.RunNamed.run_named (F := Ideal) m ρ)
  · refine (θ_run Cert.ReferenceIdeal.defs _ _).mono (fun r h c => ⟨?_, (h c).2⟩)
      (Cert.ReferenceIdeal.Value.run (F := Ideal) m' ρ')
    obtain ⟨a0, a1, a2, a3, a4, a5, a6, a7, a8, a9, a10⟩ := hagree c
    rw [(h c).1, Cert.ReferenceIdeal.Read.val_main_v80_eq, Cert.Sage.Ref.net_eq, a0, a1, a2, a3, a4, a5, a6, a7, a8, a9, a10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
